-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4x2048 : Shape := ⟨3, ![512, 4, 2048]⟩
abbrev S9x4x256 : Shape := ⟨3, ![9, 4, 256]⟩
abbrev S1x256 : Shape := ⟨2, ![1, 256]⟩
abbrev S_ : Shape := ⟨0, ![]⟩

class Facts : Prop where
  bcast_S_S512x4x2048 : S_.BroadcastsInDim S512x4x2048 (![] : Fin 0 → Fin S512x4x2048.rank)
  reducesTo_S512x4x2048_S_d0_1_2 : S512x4x2048.ReducesTo [0, 1, 2] S_
  h_S_ : 0 < S_.numel
  bcast_S_S9x4x256 : S_.BroadcastsInDim S9x4x256 (![] : Fin 0 → Fin S9x4x256.rank)
  reducesTo_S9x4x256_S_d0_1_2 : S9x4x256.ReducesTo [0, 1, 2] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S512x4x2048 .f32) (main_arg1 : FVec F S9x4x256 .f32) (main_arg2 : FVec F S1x256 .f32) : IVec S_ 1 :=
  let main_v0 : FVec F S512x4x2048 .f32 := Host.absf main_arg0
  let main_cst : FVec F S_ .f32 := constant S_ .f32 0x7F800000#32
  let main_v1 : FVec F S512x4x2048 .f32 := broadcastInDim S512x4x2048 ![] bcast_S_S512x4x2048 main_cst
  let main_v2 : IVec S512x4x2048 1 := cmpf .olt main_v0 main_v1
  let main_c : IVec S_ 1 := constantI S_ 1 1#1
  let main_v3 : IVec S_ 1 := (fun x v => Host.reduce IntOp.andi x v reducesTo_S512x4x2048_S_d0_1_2 h_S_) main_v2 main_c
  let main_v4 : FVec F S9x4x256 .f32 := Host.absf main_arg1
  let main_cst_0 : FVec F S_ .f32 := constant S_ .f32 0x7F800000#32
  let main_v5 : FVec F S9x4x256 .f32 := broadcastInDim S9x4x256 ![] bcast_S_S9x4x256 main_cst_0
  let main_v6 : IVec S9x4x256 1 := cmpf .olt main_v4 main_v5
  let main_c_1 : IVec S_ 1 := constantI S_ 1 1#1
  let main_v7 : IVec S_ 1 := (fun x v => Host.reduce IntOp.andi x v reducesTo_S9x4x256_S_d0_1_2 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S512x4x2048 : Shape := ⟨3, ![512, 4, 2048]⟩
abbrev S9x4x256 : Shape := ⟨3, ![9, 4, 256]⟩
abbrev S1x256 : Shape := ⟨2, ![1, 256]⟩
abbrev S_ : Shape := ⟨0, ![]⟩
abbrev S512x4x2056 : Shape := ⟨3, ![512, 4, 2056]⟩
abbrev S36x256 : Shape := ⟨2, ![36, 256]⟩
abbrev S512x2048x256 : Shape := ⟨3, ![512, 2048, 256]⟩
abbrev S1x4x2056 : Shape := ⟨3, ![1, 4, 2056]⟩
abbrev S1x2048x256 : Shape := ⟨3, ![1, 2048, 256]⟩
abbrev S4x2056 : Shape := ⟨2, ![4, 2056]⟩
abbrev S4x2048 : Shape := ⟨2, ![4, 2048]⟩
abbrev S36x2048 : Shape := ⟨2, ![36, 2048]⟩
abbrev S2048x256 : Shape := ⟨2, ![2048, 256]⟩

abbrev nBuf : Space → Nat
  | .hbm => 8
  | .vmem => 6
  | .smem => 0
  | _ => 0

abbrev bufTy : (tb : Table) → Fin (tcTables nBuf tb) → BufTy
  | .hbm, ⟨0, _⟩ => ⟨S512x4x2048, .f32⟩
  | .hbm, ⟨1, _⟩ => ⟨S9x4x256, .f32⟩
  | .hbm, ⟨2, _⟩ => ⟨S1x256, .f32⟩
  | .hbm, ⟨3, _⟩ => ⟨S_, .i32⟩
  | .hbm, ⟨4, _⟩ => ⟨S_, .f32⟩
  | .hbm, ⟨5, _⟩ => ⟨S512x4x2056, .f32⟩
  | .hbm, ⟨6, _⟩ => ⟨S36x256, .f32⟩
  | .hbm, ⟨7, _⟩ => ⟨S512x2048x256, .f32⟩
  | .local _ .vmem, ⟨0, _⟩ => ⟨S1x4x2056, .f32⟩
  | .local _ .vmem, ⟨1, _⟩ => ⟨S1x4x2056, .f32⟩
  | .local _ .vmem, ⟨2, _⟩ => ⟨S36x256, .f32⟩
  | .local _ .vmem, ⟨3, _⟩ => ⟨S1x256, .f32⟩
  | .local _ .vmem, ⟨4, _⟩ => ⟨S1x2048x256, .f32⟩
  | .local _ .vmem, ⟨5, _⟩ => ⟨S1x2048x256, .f32⟩
  | _, _ => ⟨S512x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x2056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S512x4x2048_S512x4x2056_000_000_440 : S512x4x2048.Pads (![0, 0, 4] : Fin 3 → Nat) ![0, 0, 4] ![0, 0, 0] S512x4x2056
  h_S_ : 0 < S_.numel
  shapeCasts_S9x4x256_S36x256 : S9x4x256.ShapeCasts S36x256
  inb_S1x4x2056_S1x4x2056_0_0_0 : ∀ a, (![0, 0, 0] : Fin 3 → Nat) a + S1x4x2056.size a ≤ S1x4x2056.size a
  h_S1x4x2056 : 0 < S1x4x2056.numel
  shapeCasts_S1x4x2056_S4x2056 : S1x4x2056.ShapeCasts S4x2056
  slices_S4x2056_o0_0_S4x2048 : S4x2056.Slices ![0, 0] S4x2048
  slices_S4x2056_o0_1_S4x2048 : S4x2056.Slices ![0, 1] S4x2048
  slices_S4x2056_o0_2_S4x2048 : S4x2056.Slices ![0, 2] S4x2048
  slices_S4x2056_o0_3_S4x2048 : S4x2056.Slices ![0, 3] S4x2048
  slices_S4x2056_o0_4_S4x2048 : S4x2056.Slices ![0, 4] S4x2048
  slices_S4x2056_o0_5_S4x2048 : S4x2056.Slices ![0, 5] S4x2048
  slices_S4x2056_o0_6_S4x2048 : S4x2056.Slices ![0, 6] S4x2048
  slices_S4x2056_o0_7_S4x2048 : S4x2056.Slices ![0, 7] S4x2048
  slices_S4x2056_o0_8_S4x2048 : S4x2056.Slices ![0, 8] S4x2048
  concatenates_S4x2048_S4x2048_S4x2048_S4x2048_S4x2048_S4x2048_S4x2048_S4x2048_S4x2048_S36x2048_d0 : Shape.Concatenates [S4x2048, S4x2048, S4x2048, S4x2048, S4x2048, S4x2048, S4x2048, S4x2048, S4x2048] S36x2048 0
  inb_S36x256_S36x256_0_0 : ∀ a, (![0, 0] : Fin 2 → Nat) a + S36x256.size a ≤ S36x256.size a
  h_S36x256 : 0 < S36x256.numel
  shapeCasts_S36x256_S36x256 : S36x256.ShapeCasts S36x256
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S36x2048_S36x256_S2048x256_0_0_1_1_n_n_wf : DotDims.WF S36x2048 S36x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x2056.size a ≤ S512x4x2056.size a
  hwx0_0 : ∀ i : grid0.Coords, EltTy.bits .f32 = 32 ∨ (Rect.block (s := S512x4x2056) S1x4x2056.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x256.size a ≤ S36x256.size a
  hwx0_1 : ∀ i : grid0.Coords, EltTy.bits .f32 = 32 ∨ (Rect.block (s := S36x256) S36x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S512x2048x256.size a
  hwx0_3 : ∀ i : grid0.Coords, EltTy.bits .f32 = 32 ∨ (Rect.block (s := S512x2048x256) S1x2048x256.size (cc0_transform_3 i) (hinb0_3 i)).WholeWords (EltTy.packing .f32)

variable [Facts₀]

def dot_S36x2048_S36x256_S2048x256_0_0_1_1_n_n : DotDims S36x2048 S36x256 S2048x256 where
  lhsContracting := [0]
  rhsContracting := [0]
  lhsNonContracting := [1]
  rhsNonContracting := [1]
  lhsBatch := []
  rhsBatch := []
  wf := dot_S36x2048_S36x256_S2048x256_0_0_1_1_n_n_wf

abbrev win0_0 : Pipeline.Window sig grid0 :=
  Pipeline.Window.ofSpec (Memref.whole main_v0) S1x4x2056.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S36x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x4x2048 : Shape := ⟨3, ![512, 4, 2048]⟩
abbrev S9x4x256 : Shape := ⟨3, ![9, 4, 256]⟩
abbrev S1x256 : Shape := ⟨2, ![1, 256]⟩
abbrev S_ : Shape := ⟨0, ![]⟩
abbrev S512x4x2056 : Shape := ⟨3, ![512, 4, 2056]⟩
abbrev S512x4x520 : Shape := ⟨3, ![512, 4, 520]⟩
abbrev S512x1x4x520 : Shape := ⟨4, ![512, 1, 4, 520]⟩
abbrev S512x4x4x520 : Shape := ⟨4, ![512, 4, 4, 520]⟩
abbrev S512x2048x256 : Shape := ⟨3, ![512, 2048, 256]⟩
abbrev S1x1x4x520 : Shape := ⟨4, ![1, 1, 4, 520]⟩
abbrev S1x512x256 : Shape := ⟨3, ![1, 512, 256]⟩
abbrev S4x520 : Shape := ⟨2, ![4, 520]⟩
abbrev S512x256 : Shape := ⟨2, ![512, 256]⟩
abbrev S4x512 : Shape := ⟨2, ![4, 512]⟩
abbrev S1x4x256 : Shape := ⟨3, ![1, 4, 256]⟩
abbrev S4x256 : Shape := ⟨2, ![4, 256]⟩

abbrev nBuf : Space → Nat
  | .hbm => 16
  | .vmem => 6
  | .smem => 0
  | _ => 0

abbrev bufTy : (tb : Table) → Fin (tcTables nBuf tb) → BufTy
  | .hbm, ⟨0, _⟩ => ⟨S512x4x2048, .f32⟩
  | .hbm, ⟨1, _⟩ => ⟨S9x4x256, .f32⟩
  | .hbm, ⟨2, _⟩ => ⟨S1x256, .f32⟩
  | .hbm, ⟨3, _⟩ => ⟨S_, .i32⟩
  | .hbm, ⟨4, _⟩ => ⟨S_, .f32⟩
  | .hbm, ⟨5, _⟩ => ⟨S512x4x2056, .f32⟩
  | .hbm, ⟨6, _⟩ => ⟨S512x4x520, .f32⟩
  | .hbm, ⟨7, _⟩ => ⟨S512x4x520, .f32⟩
  | .hbm, ⟨8, _⟩ => ⟨S512x4x520, .f32⟩
  | .hbm, ⟨9, _⟩ => ⟨S512x4x520, .f32⟩
  | .hbm, ⟨10, _⟩ => ⟨S512x1x4x520, .f32⟩
  | .hbm, ⟨11, _⟩ => ⟨S512x1x4x520, .f32⟩
  | .hbm, ⟨12, _⟩ => ⟨S512x1x4x520, .f32⟩
  | .hbm, ⟨13, _⟩ => ⟨S512x1x4x520, .f32⟩
  | .hbm, ⟨14, _⟩ => ⟨S512x4x4x520, .f32⟩
  | .hbm, ⟨15, _⟩ => ⟨S512x2048x256, .f32⟩
  | .local _ .vmem, ⟨0, _⟩ => ⟨S1x1x4x520, .f32⟩
  | .local _ .vmem, ⟨1, _⟩ => ⟨S1x1x4x520, .f32⟩
  | .local _ .vmem, ⟨2, _⟩ => ⟨S9x4x256, .f32⟩
  | .local _ .vmem, ⟨3, _⟩ => ⟨S1x256, .f32⟩
  | .local _ .vmem, ⟨4, _⟩ => ⟨S1x512x256, .f32⟩
  | .local _ .vmem, ⟨5, _⟩ => ⟨S1x512x256, .f32⟩
  | _, _ => ⟨S512x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![512, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x4x520 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S512x4x2048_S512x4x2056_000_000_440 : S512x4x2048.Pads (![0, 0, 4] : Fin 3 → Nat) ![0, 0, 4] ![0, 0, 0] S512x4x2056
  h_S_ : 0 < S_.numel
  slices_S512x4x2056_S512x4x520_0_0_0 : S512x4x2056.Slices ![0, 0, 0] S512x4x520
  slices_S512x4x2056_S512x4x520_0_0_512 : S512x4x2056.Slices ![0, 0, 512] S512x4x520
  slices_S512x4x2056_S512x4x520_0_0_1024 : S512x4x2056.Slices ![0, 0, 1024] S512x4x520
  slices_S512x4x2056_S512x4x520_0_0_1536 : S512x4x2056.Slices ![0, 0, 1536] S512x4x520
  bcast_S512x4x520_S512x1x4x520_0_2_3 : S512x4x520.BroadcastsInDim S512x1x4x520 (![0, 2, 3] : Fin 3 → Fin S512x1x4x520.rank)
  concatenates_S512x1x4x520_S512x1x4x520_S512x1x4x520_S512x1x4x520_S512x4x4x520_d1 : Shape.Concatenates [S512x1x4x520, S512x1x4x520, S512x1x4x520, S512x1x4x520] S512x4x4x520 1
  inb_S1x1x4x520_S1x1x4x520_0_0_0_0 : ∀ a, (![0, 0, 0, 0] : Fin 4 → Nat) a + S1x1x4x520.size a ≤ S1x1x4x520.size a
  h_S1x1x4x520 : 0 < S1x1x4x520.numel
  shapeCasts_S1x1x4x520_S4x520 : S1x1x4x520.ShapeCasts S4x520
  slices_S4x520_o0_0_S4x512 : S4x520.Slices ![0, 0] S4x512
  inb_S9x4x256_S1x4x256_0_0_0 : ∀ a, (![0, 0, 0] : Fin 3 → Nat) a + S1x4x256.size a ≤ S9x4x256.size a
  h_S1x4x256 : 0 < S1x4x256.numel
  shapeCasts_S1x4x256_S4x256 : S1x4x256.ShapeCasts S4x256
  slices_S4x520_o0_1_S4x512 : S4x520.Slices ![0, 1] S4x512
  inb_S9x4x256_S1x4x256_1_0_0 : ∀ a, (![1, 0, 0] : Fin 3 → Nat) a + S1x4x256.size a ≤ S9x4x256.size a
  slices_S4x520_o0_2_S4x512 : S4x520.Slices ![0, 2] S4x512
  inb_S9x4x256_S1x4x256_2_0_0 : ∀ a, (![2, 0, 0] : Fin 3 → Nat) a + S1x4x256.size a ≤ S9x4x256.size a
  slices_S4x520_o0_3_S4x512 : S4x520.Slices ![0, 3] S4x512
  inb_S9x4x256_S1x4x256_3_0_0 : ∀ a, (![3, 0, 0] : Fin 3 → Nat) a + S1x4x256.size a ≤ S9x4x256.size a
  slices_S4x520_o0_4_S4x512 : S4x520.Slices ![0, 4] S4x512
  inb_S9x4x256_S1x4x256_4_0_0 : ∀ a, (![4, 0, 0] : Fin 3 → Nat) a + S1x4x256.size a ≤ S9x4x256.size a
  slices_S4x520_o0_5_S4x512 : S4x520.Slices ![0, 5] S4x512
  inb_S9x4x256_S1x4x256_5_0_0 : ∀ a, (![5, 0, 0] : Fin 3 → Nat) a + S1x4x256.size a ≤ S9x4x256.size a
  slices_S4x520_o0_6_S4x512 : S4x520.Slices ![0, 6] S4x512
  inb_S9x4x256_S1x4x256_6_0_0 : ∀ a, (![6, 0, 0] : Fin 3 → Nat) a + S1x4x256.size a ≤ S9x4x256.size a
  slices_S4x520_o0_7_S4x512 : S4x520.Slices ![0, 7] S4x512
  inb_S9x4x256_S1x4x256_7_0_0 : ∀ a, (![7, 0, 0] : Fin 3 → Nat) a + S1x4x256.size a ≤ S9x4x256.size a
  slices_S4x520_o0_8_S4x512 : S4x520.Slices ![0, 8] S4x512
  inb_S9x4x256_S1x4x256_8_0_0 : ∀ a, (![8, 0, 0] : Fin 3 → Nat) a + S1x4x256.size a ≤ S9x4x256.size a
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S4x512_S4x256_S512x256_0_0_1_1_n_n_wf : DotDims.WF S4x512 S4x256 S512x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4x520.size a ≤ S512x4x4x520.size a
  hwx0_0 : ∀ i : grid0.Coords, EltTy.bits .f32 = 32 ∨ (Rect.block (s := S512x4x4x520) S1x1x4x520.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x4x256.size a ≤ S9x4x256.size a
  hwx0_1 : ∀ i : grid0.Coords, EltTy.bits .f32 = 32 ∨ (Rect.block (s := S9x4x256) S9x4x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S512x2048x256.size a
  hwx0_3 : ∀ i : grid0.Coords, EltTy.bits .f32 = 32 ∨ (Rect.block (s := S512x2048x256) S1x512x256.size (cc0_transform_3 i) (hinb0_3 i)).WholeWords (EltTy.packing .f32)

variable [Facts₀]

def dot_S4x512_S4x256_S512x256_0_0_1_1_n_n : DotDims S4x512 S4x256 S512x256 where
  lhsContracting := [0]
  rhsContracting := [0]
  lhsNonContracting := [1]
  rhsNonContracting := [1]
  lhsBatch := []
  rhsBatch := []
  wf := dot_S4x512_S4x256_S512x256_0_0_1_1_n_n_wf

abbrev win0_0 : Pipeline.Window sig grid0 :=
  Pipeline.Window.ofSpec (Memref.whole main_v9) S1x1x4x520.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.ConvSpec.lean ====
/-
  The function both programs compute, and the two rearrangements of its sum.

  The input row (batch b, channel c) is padded by four zeros on each side: 2056 columns. The output at
  (b, l, d) is the nine-tap convolution over the four channels, plus the bias, clamped below at zero:

      out(b, l, d) = max ( Σ_{k < 9} Σ_{c < 4} P(b, c, l + k) · W(k, c, d)  +  B(0, d) ,  0 ).

  Stated here over the padded array `P`, so that nothing below has to open the padding. One program reaches
  the double sum as ONE sum over 36 = 9 · 4 stacked rows (row 4 k + c is channel c shifted by k), the other as
  nine four-term sums added left to right starting from zero. On the extended reals addition is commutative
  and associative with neutral element zero, which is all either rearrangement needs: no finiteness enters.
-/
import Idealize.ShloMosaic.Lib.ValueIdx
import Idealize.ShloMosaic.PureOps.Ideal
import Mathlib.Algebra.BigOperators.Fin
import Mathlib.Algebra.BigOperators.Ring.Finset
import Mathlib.Logic.Equiv.Fin.Basic

noncomputable section

namespace Cert.ConvSpec

open Idealize.ShloMosaic Idealize.ShloMosaic.ValueIdx
open scoped BigOperators

/-- The padded input, the tap matrices, the bias row, the output. -/
abbrev SPad : Shape := ⟨3, ![512, 4, 2056]⟩
abbrev STaps : Shape := ⟨3, ![9, 4, 256]⟩
abbrev SBias : Shape := ⟨2, ![1, 256]⟩
abbrev SOut : Shape := ⟨3, ![512, 2048, 256]⟩

/-- Column `l + k` of a padded row: output position `l` seen through tap `k`. -/
abbrev tapCol (l : Fin 2048) (k : Fin 9) : Fin 2056 := ⟨l.val + k.val, by omega⟩

/-- The convolution at explicit coordinates. -/
def convAt (P : SPad.Idx → EReal) (W : STaps.Idx → EReal) (B : SBias.Idx → EReal)
    (b : Fin 512) (l : Fin 2048) (d : Fin 256) : EReal :=
  max ((∑ k : Fin 9, ∑ c : Fin 4, P (ix3 b c (tapCol l k)) * W (ix3 k c d)) + B (ix2 (0 : Fin 1) d)) 0

/-- The whole output array. -/
def conv (P : SPad.Idx → EReal) (W : STaps.Idx → EReal) (B : SBias.Idx → EReal) : SOut.Idx → EReal :=
  fun i => convAt P W B (i 0) (i 1) (i 2)

theorem conv_ix3 (P : SPad.Idx → EReal) (W : STaps.Idx → EReal) (B : SBias.Idx → EReal)
    (b : Fin 512) (l : Fin 2048) (d : Fin 256) : conv P W B (ix3 b l d) = convAt P W B b l d := rfl

/-- Row `j` of the 36 stacked rows is tap `j / 4`, channel `j % 4`. -/
abbrev rowTap (j : Fin 36) : Fin 9 := ⟨j.val / 4, by omega⟩
abbrev rowChan (j : Fin 36) : Fin 4 := ⟨j.val % 4, by omega⟩

/-- One sum over the 36 stacked rows is the double sum over taps and channels. -/
theorem sum_rows {M : Type*} [AddCommMonoid M] (f : Fin 9 → Fin 4 → M) :
    ∑ j : Fin 36, f (rowTap j) (rowChan j) = ∑ k : Fin 9, ∑ c : Fin 4, f k c := by
  rw [← Fintype.sum_prod_type' f]
  refine (Equiv.sum_comp (finProdFinEquiv (m := 9) (n := 4)) (fun j : Fin 36 => f (rowTap j) (rowChan j))).symm.trans ?_
  refine Finset.sum_congr rfl fun p _ => ?_
  obtain ⟨k, c⟩ := p
  have hk : rowTap (finProdFinEquiv (k, c)) = k := Fin.ext (by
    show (c.val + 4 * k.val) / 4 = k.val
    have := c.isLt; omega)
  have hc : rowChan (finProdFinEquiv (k, c)) = c := Fin.ext (by
    show (c.val + 4 * k.val) % 4 = c.val
    have := c.isLt; omega)
  rw [hk, hc]

/-- Nine terms added left to right onto zero are their sum. -/
theorem sum_taps {M : Type*} [AddCommMonoid M] (T : Fin 9 → M) :
    0 + T 0 + T 1 + T 2 + T 3 + T 4 + T 5 + T 6 + T 7 + T 8 = ∑ k : Fin 9, T k := by
  rw [Fin.sum_univ_castSucc, Fin.sum_univ_eight, zero_add]
  rfl

end Cert.ConvSpec

end
-- ==== Proof.KernelBlock.lean ====
/-
  The fused kernel's stored block, read at an index.

  At one grid point (one batch element) the body holds the padded 4 x 2056 tile, stacks its nine column-shifted
  4 x 2048 views along the rows into one 36 x 2048 operand (row 4 k + c is channel c shifted by k columns),
  contracts the 36 rows against the 36 x 256 flattened taps in ONE product into a zero accumulator, adds the
  bias row to every output row and clamps below at zero. Read at output position (l, d) this is

      max ( Σ_{j < 36} tile(j % 4, l + j / 4) · taps(j, d)  +  bias(0, d) ,  0 ).

  The steps: the product as a plain sum over its 36 contraction indices; a stacked row read as a shifted tile row;
  the block.
-/
import proofs.«145477_g2000609548398270_pallasbulk_1038_3_alg».proof.Proof.Gen.KernelIdeal.Skeleton
import proofs.«145477_g2000609548398270_pallasbulk_1038_3_alg».proof.Proof.ConvSpec
import Idealize.ShloMosaic.Lib.Pipeline.Value
import Idealize.ShloMosaic.Lib.ValueLayout
import Idealize.ShloMosaic.PureOps.Ideal.Laws

noncomputable section
namespace Cert.KernelIdeal.ConvBlock
open Cert.KernelIdeal Cert.KernelIdeal.Gen Idealize.ShloMosaic Idealize.ShloMosaic.ValueIdx Cert.ConvSpec
open scoped BigOperators

/-- The 36-row contraction's dimension numbers. -/
abbrev D36 := dot_S36x2048_S36x256_S2048x256_0_0_1_1_n_n

/-- Its operand indices, axis by axis: the left operand is (contraction row, output row), the right one
    (contraction row, output column). -/
theorem lhs_0 (j : S2048x256.Idx) (k : D36.contr.Idx) : (D36.lhsIdx j k 0 : ℕ) = k ⟨0, by decide⟩ := by
  simp [DotDims.lhsIdx, D36, dot_S36x2048_S36x256_S2048x256_0_0_1_1_n_n]; rfl
theorem lhs_1 (j : S2048x256.Idx) (k : D36.contr.Idx) : (D36.lhsIdx j k 1 : ℕ) = j 0 := by
  simp [DotDims.lhsIdx, D36, dot_S36x2048_S36x256_S2048x256_0_0_1_1_n_n]; rfl
theorem rhs_0 (j : S2048x256.Idx) (k : D36.contr.Idx) : (D36.rhsIdx j k 0 : ℕ) = k ⟨0, by decide⟩ := by
  simp [DotDims.rhsIdx, D36, dot_S36x2048_S36x256_S2048x256_0_0_1_1_n_n]; rfl
theorem rhs_1 (j : S2048x256.Idx) (k : D36.contr.Idx) : (D36.rhsIdx j k 1 : ℕ) = j 1 := by
  simp [DotDims.rhsIdx, D36, dot_S36x2048_S36x256_S2048x256_0_0_1_1_n_n]; rfl

/-- The 36-row product into the zero accumulator, at (l, d): the sum over the 36 rows. -/
theorem matmul36_apply (A : FVec Ideal S36x2048 .f32) (Bm : FVec Ideal S36x256 .f32) (l : Fin 2048) (d : Fin 256) :
    matmul D36 none A Bm (constant S2048x256 .f32 0x00000000#32) (ix2 l d) = ∑ j : Fin 36, A (ix2 j l) * Bm (ix2 j d) := by
  simp only [matmul]
  rw [Ideal.matmul_constant_zero_apply]
  rw [← Equiv.sum_comp (contrEquiv1 D36 36 rfl rfl).symm]
  refine Finset.sum_congr rfl fun j _ => ?_
  have e1 : D36.lhsIdx (ix2 l d) ((contrEquiv1 D36 36 rfl rfl).symm j) = ix2 j l := by
    funext a; apply Fin.ext
    match a with
    | ⟨0, _⟩ => exact (lhs_0 _ _).trans (contrEquiv1_symm_val D36 36 rfl rfl j)
    | ⟨1, _⟩ => exact lhs_1 _ _
  have e2 : D36.rhsIdx (ix2 l d) ((contrEquiv1 D36 36 rfl rfl).symm j) = ix2 j d := by
    funext a; apply Fin.ext
    match a with
    | ⟨0, _⟩ => exact (rhs_0 _ _).trans (contrEquiv1_symm_val D36 36 rfl rfl j)
    | ⟨1, _⟩ => exact rhs_1 _ _
  rw [e1, e2]

/-- Row `j` of the nine stacked shifted views, at column `l`: channel `j % 4` of the tile at column `l + j / 4`.
    The nine views have one shape, so the stack is read by dividing the row by four. -/
theorem taps_apply (v1 : FVec Ideal S4x2056 .f32) (j : Fin 36) (l : Fin 2048) :
    concatenate S36x2048 0 [⟨S4x2048, extractStridedSlice S4x2048 ![0, 0] v1 slices_S4x2056_o0_0_S4x2048⟩, ⟨S4x2048, extractStridedSlice S4x2048 ![0, 1] v1 slices_S4x2056_o0_1_S4x2048⟩, ⟨S4x2048, extractStridedSlice S4x2048 ![0, 2] v1 slices_S4x2056_o0_2_S4x2048⟩, ⟨S4x2048, extractStridedSlice S4x2048 ![0, 3] v1 slices_S4x2056_o0_3_S4x2048⟩, ⟨S4x2048, extractStridedSlice S4x2048 ![0, 4] v1 slices_S4x2056_o0_4_S4x2048⟩, ⟨S4x2048, extractStridedSlice S4x2048 ![0, 5] v1 slices_S4x2056_o0_5_S4x2048⟩, ⟨S4x2048, extractStridedSlice S4x2048 ![0, 6] v1 slices_S4x2056_o0_6_S4x2048⟩, ⟨S4x2048, extractStridedSlice S4x2048 ![0, 7] v1 slices_S4x2056_o0_7_S4x2048⟩, ⟨S4x2048, extractStridedSlice S4x2048 ![0, 8] v1 slices_S4x2056_o0_8_S4x2048⟩] concatenates_S4x2048_S4x2048_S4x2048_S4x2048_S4x2048_S4x2048_S4x2048_S4x2048_S4x2048_S36x2048_d0 (ix2 j l)
      = v1 (ix2 (rowChan j) (tapCol l (rowTap j))) := by
  have hs : ∀ n : Fin 9, S4x2056.Slices ![0, n.val] S4x2048 := by decide
  refine (concatenate_ofFn_apply (t := S36x2048) (s₁ := S4x2048) 0 (fun n : Fin 9 => extractStridedSlice S4x2048 ![0, n.val] v1 (hs n))
    concatenates_S4x2048_S4x2048_S4x2048_S4x2048_S4x2048_S4x2048_S4x2048_S4x2048_S4x2048_S36x2048_d0 rfl 4 rfl (ix2 j l) (rowTap j) rfl (ix2 (rowChan j) l) rfl ?_).trans ?_
  · intro b hb
    match b with
    | ⟨0, _⟩ => exact absurd rfl hb
    | ⟨1, _⟩ => rfl
  · exact slice2_axis1_apply (rowTap j).val v1 (hs _) (rowChan j) l (tapCol l (rowTap j)) (by show l.val + _ = _ + l.val; omega)

/-- The body's stored block at (0, l, d): the 36-row product sum plus the bias, clamped at zero. Row `j` of the
    stacked operand is channel `j % 4` of the tile shifted by `j / 4` columns. -/
theorem pay_apply (x0 : Vec Ideal S1x4x2056 .f32) (x1 : Vec Ideal S36x256 .f32) (x2 : Vec Ideal S1x256 .f32) (l : Fin 2048) (d : Fin 256) :
    k0_pay1 x0 x1 x2 (ix3 (0 : Fin 1) l d)
      = max ((∑ j : Fin 36, x0 (ix3 (0 : Fin 1) (rowChan j) (tapCol l (rowTap j))) * x1 (ix2 j d)) + x2 (ix2 (0 : Fin 1) d)) 0 := by
  unfold k0_pay1
  refine (shapeCast_ab_1ab_apply _ _ (0 : Fin 1) l d).trans ?_
  rw [maximumf_apply, addf_apply, broadcast_apply, broadcastTo_1b_ab_apply, shapeCast_self]
  rw [matmul36_apply]
  show max _ (Ideal.ofBits .f32 0x00000000#32) = _
  rw [Ideal.ofBits_zero_f32]
  refine congrArg (fun s => max (s + x2 (ix2 (0 : Fin 1) d)) 0) (Finset.sum_congr rfl fun j _ => ?_)
  rw [taps_apply, shapeCast_1ab_ab_apply]

end Cert.KernelIdeal.ConvBlock
end
-- ==== Proof.KernelValue.lean ====
/-
  The fused kernel's result array as one function of its arguments.

  The launch walks the 512 batch elements; point `t` reads row block `t` of the padded input, the whole flattened
  36 x 256 taps and the bias row, and writes back block `t` (all 2048 positions, all 256 features) of the result.
  The flattened taps are a row-major recast of the 9 x 4 x 256 array: row 4 k + c is tap k, channel c. So what a
  point writes back is block `t` of the convolution of the padded input (ConvSpec), the blocks cover the result
  array, and the array ends at the convolution.
-/
import proofs.«145477_g2000609548398270_pallasbulk_1038_3_alg».proof.Proof.Gen.KernelIdeal.Value
import proofs.«145477_g2000609548398270_pallasbulk_1038_3_alg».proof.Proof.KernelBlock
import Idealize.ShloMosaic.Lib.Pipeline.Value
import Idealize.ShloMosaic.Lib.StableHlo.Run

noncomputable section

namespace Cert.KernelIdeal.ConvValue

open Cert.KernelIdeal Cert.KernelIdeal.Gen Cert.KernelIdeal.Value Cert.KernelIdeal.ConvBlock Cert.ConvSpec
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The host operations before the launch -/

/-- The input padded by four zero columns on each side of its last axis. -/
def padded (x : Vec Ideal S512x4x2048 .f32) : Vec Ideal S512x4x2056 .f32 :=
  pad S512x4x2056 ![0, 0, 4] ![0, 0, 4] ![0, 0, 0] x (sitofp .f32 (constantI S_ 32 0#32) : FVec Ideal S_ .f32) pads_S512x4x2048_S512x4x2056_000_000_440 h_S_

/-- The launch finds the padded input in window 0's array. -/
theorem V_pad (c : Dev nD) : (V m c main_v0 : Vec Ideal S512x4x2056 .f32) = padded (m ((c : Thread nD τ).loc main_arg0)) := by
  dsimp only [V]
  simp only [hostOps0, hostOps0_1, hostOps0_2, List.flatten_cons, List.flatten_nil, List.append_nil, List.cons_append, List.nil_append]
  after_results
  rfl

/-- The launch finds the taps recast to 36 rows in window 1's array. -/
theorem V_taps (c : Dev nD) : (V m c main_v1 : Vec Ideal S36x256 .f32)
    = shapeCast S36x256 (m ((c : Thread nD τ).loc main_arg1) : Vec Ideal S9x4x256 .f32) shapeCasts_S9x4x256_S36x256 := by
  dsimp only [V]
  simp only [hostOps0, hostOps0_1, hostOps0_2, List.flatten_cons, List.flatten_nil, List.append_nil, List.cons_append, List.nil_append]
  after_results
  rfl

/-- Row `j` of the recast taps is tap `j / 4`, channel `j % 4`. -/
theorem taps_row (W : Vec Ideal S9x4x256 .f32) (j : Fin 36) (d : Fin 256) :
    shapeCast S36x256 W shapeCasts_S9x4x256_S36x256 (ix2 j d) = W (ix3 (rowTap j) (rowChan j) d) := by
  refine shapeCast_apply W _ _ _ ?_
  rw [Shape.rowMajor_val_three, Shape.rowMajor_val_two]
  show ((j.val / 4) * 4 + j.val % 4) * 256 + d.val = j.val * 256 + d.val
  have := Nat.div_add_mod j.val 4
  omega

/-! ## The windows' block indices, decided over the 512 points -/

theorem idx_in : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch element of grid point `t`. -/
abbrev batchOf (t : Fin cfg0.N) : Fin 512 := Fin.cast N_0 t

/-- Window 0's block at point `t` is row block `t` of the padded input. -/
theorem iblk0_apply (c : Dev nD) (t : Fin cfg0.N) (ch : Fin 4) (p : Fin 2056) :
    (iblk m c 0 t : Vec Ideal S1x4x2056 .f32) (ix3 (0 : Fin 1) ch p) = (V m c main_v0 : Vec Ideal S512x4x2056 .f32) (ix3 (batchOf t) ch p) := by
  obtain ⟨e0, e1, e2, -⟩ := idx_in t
  unfold iblk
  rw [View.read_apply]
  show V m c main_v0 _ = V m c main_v0 _
  congr 1
  funext a
  apply Fin.ext
  match a with
  | ⟨0, _⟩ => show win0_0.index t (0 : Fin 3) * 1 + 1 * 0 = t.val; rw [e0]; omega
  | ⟨1, _⟩ => show win0_0.index t (1 : Fin 3) * 4 + 1 * ch.val = ch.val; rw [e1]; omega
  | ⟨2, _⟩ => show win0_0.index t (2 : Fin 3) * 2056 + 1 * p.val = p.val; rw [e2]; omega

/-- Window 1's block at every point is the whole recast taps array. -/
theorem iblk1_apply (c : Dev nD) (t : Fin cfg0.N) (j : Fin 36) (d : Fin 256) :
    (iblk m c 1 t : Vec Ideal S36x256 .f32) (ix2 j d) = (V m c main_v1 : Vec Ideal S36x256 .f32) (ix2 j d) := by
  obtain ⟨-, -, -, e0, e1, -⟩ := idx_in t
  unfold iblk
  rw [View.read_apply]
  show V m c main_v1 _ = V m c main_v1 _
  congr 1
  funext a
  apply Fin.ext
  match a with
  | ⟨0, _⟩ => show win0_1.index t (0 : Fin 2) * 36 + 1 * j.val = j.val; rw [e0]; omega
  | ⟨1, _⟩ => show win0_1.index t (1 : Fin 2) * 256 + 1 * d.val = d.val; rw [e1]; omega

/-- Window 2's block at every point is the whole bias row. -/
theorem iblk2_apply (c : Dev nD) (t : Fin cfg0.N) (d : Fin 256) :
    (iblk m c 2 t : Vec Ideal S1x256 .f32) (ix2 (0 : Fin 1) d) = (m ((c : Thread nD τ).loc main_arg2) : Vec Ideal S1x256 .f32) (ix2 (0 : Fin 1) d) := by
  obtain ⟨-, -, -, -, -, e0, e1, -⟩ := idx_in t
  unfold iblk
  rw [View.read_apply]
  show V m c main_arg2 _ = _
  rw [V_main_arg2]
  congr 1
  funext a
  apply Fin.ext
  match a with
  | ⟨0, _⟩ => show win0_2.index t (0 : Fin 2) * 1 + 1 * 0 = 0; rw [e0]
  | ⟨1, _⟩ => show win0_2.index t (1 : Fin 2) * 256 + 1 * d.val = d.val; rw [e1]; omega

/-! ## A point's block is a block of the convolution -/

/-- Over plain values: a tile that is row block `b` of `P`, taps that are the recast of `W`, a bias row that is `B`'s
    give at (0, l, d) the convolution at (b, l, d). The one sum over 36 rows is the double sum over taps and channels. -/
theorem block_eq (P : SPad.Idx → EReal) (W : STaps.Idx → EReal) (B : SBias.Idx → EReal) (b : Fin 512)
    (x0 : Vec Ideal S1x4x2056 .f32) (x1 : Vec Ideal S36x256 .f32) (x2 : Vec Ideal S1x256 .f32)
    (h0 : ∀ (ch : Fin 4) (p : Fin 2056), x0 (ix3 (0 : Fin 1) ch p) = P (ix3 b ch p))
    (h1 : ∀ (j : Fin 36) (d : Fin 256), x1 (ix2 j d) = W (ix3 (rowTap j) (rowChan j) d))
    (h2 : ∀ d : Fin 256, x2 (ix2 (0 : Fin 1) d) = B (ix2 (0 : Fin 1) d))
    (l : Fin 2048) (d : Fin 256) :
    k0_pay1 x0 x1 x2 (ix3 (0 : Fin 1) l d) = convAt P W B b l d := by
  rw [pay_apply]
  unfold convAt
  rw [← sum_rows (fun k c => P (ix3 b c (tapCol l k)) * W (ix3 k c d))]
  simp only [h0, h1, h2]

/-- The result array: the convolution of the padded input as the launch finds it. -/
def result (c : Dev nD) : Buf (Elt Ideal) ((c : Thread nD τ).loc main_v2) :=
  conv (V m c main_v0 : Vec Ideal S512x4x2056 .f32) (m ((c : Thread nD τ).loc main_arg1)) (m ((c : Thread nD τ).loc main_arg2))

/-- What point `t` writes back is block `t` of the result. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz3]
  rw [View.ld_unit_zero (S := S1x4x2056) hz3, View.ld_unit_zero (S := S36x256) hz2, View.ld_unit_zero (S := S1x256) hz2]
  obtain ⟨-, -, -, -, -, -, -, e0, e1, e2⟩ := idx_in t
  funext y
  obtain ⟨u, l, d, rfl⟩ : ∃ (u : Fin 1) (l : Fin 2048) (d : Fin 256), y = ix3 u l d := ⟨y 0, y 1, y 2, eq_ix3 y⟩
  obtain rfl : u = 0 := Subsingleton.elim _ _
  show k0_pay1 (iblk m c 0 t) (iblk m c 1 t) (iblk m c 2 t) (ix3 (0 : Fin 1) l d) = result m c (((cfg0.win 3).blk t).view.emb (ix3 (0 : Fin 1) l d))
  refine (block_eq (V m c main_v0 : Vec Ideal S512x4x2056 .f32) (m ((c : Thread nD τ).loc main_arg1)) (m ((c : Thread nD τ).loc main_arg2)) (batchOf t)
    (iblk m c 0 t) (iblk m c 1 t) (iblk m c 2 t) (iblk0_apply m c t) (fun j d => ?_) (iblk2_apply m c t) l d).trans ?_
  · rw [iblk1_apply, V_taps, taps_row]
  · unfold result
    refine (conv_ix3 _ _ _ (batchOf t) l d).symm.trans (congrArg _ ?_)
    funext a
    apply Fin.ext
    match a with
    | ⟨0, _⟩ => show t.val = win0_3.index t (0 : Fin 3) * 1 + 1 * 0; rw [e0]; omega
    | ⟨1, _⟩ => show l.val = win0_3.index t (1 : Fin 3) * 2048 + 1 * l.val; rw [e1]; omega
    | ⟨2, _⟩ => show d.val = win0_3.index t (2 : Fin 3) * 256 + 1 * d.val; rw [e2]; omega

/-- An index of the result array is in point `t`'s block iff each coordinate is in the block's range on its axis. -/
theorem mem_blk (t : Fin cfg0.N) (i : S512x2048x256.Idx) :
    i ∈ ((cfg0.win 3).blk t).view.set ↔ ∀ a : Fin 3, win0_3.index t a * S1x2048x256.size a ≤ (i a).val ∧ (i a).val < win0_3.index t a * S1x2048x256.size a + S1x2048x256.size a := by
  show i ∈ ((View.whole main_v2).slice (win0_3.rect t)).set ↔ _
  rw [View.set_slice_whole, Rect.mem_set_unit]
  exact Iff.rfl

/-- Every index of the result array is in the block of the point of its batch element. -/
theorem cover (i : S512x2048x256.Idx) : ∃ t : Fin cfg0.N, (cfg0.win 3).flush t = true ∧ i ∈ ((cfg0.win 3).blk t).view.set := by
  have hi0 : (i 0).val < 512 := (i 0).isLt
  have hi1 : (i 1).val < 2048 := (i 1).isLt
  have hi2 : (i 2).val < 256 := (i 2).isLt
  refine ⟨Fin.cast N_0.symm ⟨(i 0).val, hi0⟩, flush0_3 _, ?_⟩
  obtain ⟨-, -, -, -, -, -, -, e0, e1, e2⟩ := idx_in (Fin.cast N_0.symm ⟨(i 0).val, hi0⟩)
  rw [mem_blk]
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 2048 ≤ (i 1).val ∧ (i 1).val < win0_3.index _ (1 : Fin 3) * 2048 + 2048; rw [e1]; omega
  | ⟨2, _⟩ => show win0_3.index _ (2 : Fin 3) * 256 ≤ (i 2).val ∧ (i 2).val < win0_3.index _ (2 : Fin 3) * 256 + 256; rw [e2]; omega

/-- The result array after the run is the convolution. -/
theorem final (c : Dev nD) : (dats m 0 c).arrAt 3 cfg0.N = result m c :=
  (dats m 0 c).arrAt_eq_of_cover 3 (result m c) (fun t _ => flushed_eq m c t) cover

/-- The run, read: the result array at the convolution of the padded first argument with the other two, the arguments
    unchanged. -/
theorem run : θ_run defs (onTc (τ := τ) (main (F := Ideal))) ⟨m, fun _ => 0, ρ⟩ fun r => ∀ c : Dev nD,
      r.2.mem ((c : Thread nD τ).loc main_v2)
          = conv (padded (m ((c : Thread nD τ).loc main_arg0))) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by unfold result; rw [V_pad])), (h c).2⟩)
    (run_blocks m ρ)

end Cert.KernelIdeal.ConvValue

end
-- ==== Proof.RefFrame.lean ====
/-
  The reference program's run, proved against the pipeline library directly.

  The reference is itself one pipelined kernel launch: on the host the input is zero-padded by four on each side of
  its last axis, cut into four overlapping tiles of 520 columns (tile j holds columns 512 j .. 512 j + 519 of the padded
  row) and the tiles are stacked; the launch walks the grid (batch, tile), and at each point the body reads one
  4 x 520 tile, the nine 4 x 256 tap matrices and the bias row, and stores one 512 x 256 block: the nine shifted
  4-row products summed left to right from zero, plus the bias, clamped below at zero.

  What is proved here: the contents of every buffer when the launch is entered (the host operations folded over the
  launch memory), the block each window holds at a grid point, what the body leaves in the output block as a pure
  function of the three input blocks, the body's triple, the pipeline's proof data and body obligation, and from the
  library's launch theorem the run: it terminates without a fault, the output array ends at what the proof data
  computes block by block, and every other buffer ends as the launch found it. The frame claim (the three argument
  arrays unchanged) is read off that run.
-/
import proofs.«145477_g2000609548398270_pallasbulk_1038_3_alg».proof.Proof.Gen.ReferenceIdeal.Launch
import proofs.«145477_g2000609548398270_pallasbulk_1038_3_alg».proof.Proof.Gen.ReferenceIdeal.Skeleton
import proofs.«145477_g2000609548398270_pallasbulk_1038_3_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Conv

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- A core's buffers when the launch is entered: the twelve host operations (the constant, the padding, the four
    slices, their four rank-raising broadcasts, the concatenation) folded over the launch memory. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host operations, in three stretches, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the launch finds each as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether that point fetched it or an earlier one
    did and the block index has not moved since. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rTile : Rect S1x1x4x520 := Rect.unit (s := S1x1x4x520) ![0, 0, 0, 0] S1x1x4x520.size inb_S1x1x4x520_S1x1x4x520_0_0_0_0
abbrev rTap0 : Rect S9x4x256 := Rect.unit (s := S9x4x256) ![0, 0, 0] S1x4x256.size inb_S9x4x256_S1x4x256_0_0_0
abbrev rTap1 : Rect S9x4x256 := Rect.unit (s := S9x4x256) ![1, 0, 0] S1x4x256.size inb_S9x4x256_S1x4x256_1_0_0
abbrev rTap2 : Rect S9x4x256 := Rect.unit (s := S9x4x256) ![2, 0, 0] S1x4x256.size inb_S9x4x256_S1x4x256_2_0_0
abbrev rTap3 : Rect S9x4x256 := Rect.unit (s := S9x4x256) ![3, 0, 0] S1x4x256.size inb_S9x4x256_S1x4x256_3_0_0
abbrev rTap4 : Rect S9x4x256 := Rect.unit (s := S9x4x256) ![4, 0, 0] S1x4x256.size inb_S9x4x256_S1x4x256_4_0_0
abbrev rTap5 : Rect S9x4x256 := Rect.unit (s := S9x4x256) ![5, 0, 0] S1x4x256.size inb_S9x4x256_S1x4x256_5_0_0
abbrev rTap6 : Rect S9x4x256 := Rect.unit (s := S9x4x256) ![6, 0, 0] S1x4x256.size inb_S9x4x256_S1x4x256_6_0_0
abbrev rTap7 : Rect S9x4x256 := Rect.unit (s := S9x4x256) ![7, 0, 0] S1x4x256.size inb_S9x4x256_S1x4x256_7_0_0
abbrev rTap8 : Rect S9x4x256 := Rect.unit (s := S9x4x256) ![8, 0, 0] S1x4x256.size inb_S9x4x256_S1x4x256_8_0_0
abbrev rBias : Rect S1x256 := Rect.unit (s := S1x256) ![0, 0] S1x256.size inb_S1x256_S1x256_0_0
abbrev rOut : Rect S1x512x256 := Rect.unit (s := S1x512x256) ![0, 0, 0] S1x512x256.size inb_S1x512x256_S1x512x256_0_0_0

/-! ## What the body leaves in the output block -/

/-- The body's one store as a pure function of the three input blocks: the tile `x0`, the nine tap matrices read out
    of `x1` one leading index at a time, the bias row `x2`. -/
def outBlock (x0 : Vec F S1x1x4x520 .f32) (x1 : Vec F S9x4x256 .f32) (x2 : Vec F S1x256 .f32) : Vec F S1x512x256 .f32 :=
  View.canon [⟨rOut, k0_pay1 (k0_pay2 (View.ld x0 rTile))
    (k0_pay3 (View.ld x0 rTile) (View.ld x1 rTap0) (View.ld x1 rTap1) (View.ld x1 rTap2) (View.ld x1 rTap3) (View.ld x1 rTap4))
    (k0_pay4 (View.ld x0 rTile)) (View.ld x1 rTap5) (View.ld x1 rTap6) (View.ld x1 rTap7) (View.ld x1 rTap8) (View.ld x2 rBias)⟩]

/-- The one store covers the whole output block. -/
theorem coverOut (p0 : Vec F S1x512x256 .f32) (y : S1x512x256.Idx) :
    ∃ pc ∈ ([⟨rOut, p0⟩] : List (View.Piece (Elt F) S1x512x256 .f32)), y ∈ pc.1.set :=
  View.cover_of_tiled [⟨rOut, p0⟩] S1x512x256.size (by rfl) y

/-! ## The body's triple -/

set_option maxHeartbeats 1000000 in
/-- The body on whole staging buffers, the inputs at contents `x0 x1 x2` and the output at anything, runs to the
    continuation with the inputs as they were and the output at `outBlock x0 x1 x2`. -/
theorem sound_kernel (c : Dev nD) (E : Set ℕ) (i : grid0.Coords) (arg2 : Memref sig .tc .vmem S1x1x4x520 .f32) (harg2 : arg2.IsWhole) (arg3 : Memref sig .tc .vmem S9x4x256 .f32) (harg3 : arg3.IsWhole) (arg4 : Memref sig .tc .vmem S1x256 .f32) (harg4 : arg4.IsWhole) (arg5 : Memref sig .tc .vmem S1x512x256 .f32) (harg5 : arg5.IsWhole)
    (x0 : Vec F S1x1x4x520 .f32) (x1 : Vec F S9x4x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlock x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- The proof data of the launch on core `c`: the arrays as the launch finds them; after the body at point `t` each
    input's buffer at its block and the output's at `outBlock` of the three input blocks; the library's invariant for
    a body with nothing of its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) : (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; in every
    final state each array of the launch is what the proof data computes, and every other buffer is as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the output array is the proof data's final array. -/
theorem post_out (r : PUnit × MemSt nD τ sig (Elt F)) (h : Pipeline.FramePost cfgs (dats m) 0 (V m) r) (c : Dev nD) :
    r.2.mem ((c : Thread nD τ).loc main_v10) = (dats m 0 c).arrAt 3 cfg0.N :=
  (h c).1 3

/-- The padded input's source is no window's array: the run leaves it as the launch found it, which is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The tap matrices are an input window's array, never written back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The bias row is an input window's array, never written back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run with the output array named and the arguments unchanged. -/
theorem run_blocks : θ_run defs (onTc (τ := τ) (main (F := F))) ⟨m, fun _ => 0, ρ⟩ fun r => ∀ c : Dev nD,
      r.2.mem ((c : Thread nD τ).loc main_v10) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post_out m r h c, kept_main_arg0 m r h c, kept_main_arg1 m r h c, kept_main_arg2 m r h c⟩)
    (run_main m ρ)

/-- What grid point `t` writes back to the output array: the body's block, read through the window. -/
theorem flushed_out (c : Dev nD) (t : Fin cfg0.N) :
    (dats m 0 c).flushed 3 t = (cfg0.win 3).cut (grid0.coords t) (outBlock (iblk m c 0 t) (iblk m c 1 t) (iblk m c 2 t)) := by
  show (cfg0.win 3).cut (grid0.coords t) ((dats m 0 c).after 3 t) = _
  rw [after_out]

end Cert.ReferenceIdeal.Conv

end
-- ==== Proof.RefBlock.lean ====
/-
  The reference body's stored block, read at an index.

  At one grid point (batch b, tile j) the body holds one 4 x 520 tile of the padded input, the nine 4 x 256 tap
  matrices and the bias row. For each tap k it contracts the four channels of the tile shifted by k columns
  against the tap's matrix into a zero accumulator; the nine products are added left to right starting from a
  zero block, the bias row is added to every output row, and the result is clamped below at zero. Read at
  (l, d) of the 512 x 256 block:

      max ( Σ_{k < 9} Σ_{c < 4} tile(c, l + k) · tap_k(c, d)  +  bias(0, d) ,  0 ).

  The steps: a four-row product as a plain sum over the channels; one tap's product over the tile; the nine-term
  chain as a sum over the taps; the tap matrices as slabs of the 9 x 4 x 256 array; the block.
-/
import proofs.«145477_g2000609548398270_pallasbulk_1038_3_alg».proof.Proof.RefFrame
import proofs.«145477_g2000609548398270_pallasbulk_1038_3_alg».proof.Proof.ConvSpec
import Idealize.ShloMosaic.Lib.Pipeline.Value
import Idealize.ShloMosaic.Lib.ValueLayout
import Idealize.ShloMosaic.PureOps.Ideal.Laws

noncomputable section
namespace Cert.ReferenceIdeal.ConvBlock
open Cert.ReferenceIdeal Cert.ReferenceIdeal.Gen Cert.ReferenceIdeal.Conv Idealize.ShloMosaic Idealize.ShloMosaic.ValueIdx Cert.ConvSpec
open scoped BigOperators

abbrev D4 := dot_S4x512_S4x256_S512x256_0_0_1_1_n_n

theorem lhs_0 (j : S512x256.Idx) (k : D4.contr.Idx) : (D4.lhsIdx j k 0 : ℕ) = k ⟨0, by decide⟩ := by
  simp [DotDims.lhsIdx, D4, dot_S4x512_S4x256_S512x256_0_0_1_1_n_n]; rfl
theorem lhs_1 (j : S512x256.Idx) (k : D4.contr.Idx) : (D4.lhsIdx j k 1 : ℕ) = j 0 := by
  simp [DotDims.lhsIdx, D4, dot_S4x512_S4x256_S512x256_0_0_1_1_n_n]; rfl
theorem rhs_0 (j : S512x256.Idx) (k : D4.contr.Idx) : (D4.rhsIdx j k 0 : ℕ) = k ⟨0, by decide⟩ := by
  simp [DotDims.rhsIdx, D4, dot_S4x512_S4x256_S512x256_0_0_1_1_n_n]; rfl
theorem rhs_1 (j : S512x256.Idx) (k : D4.contr.Idx) : (D4.rhsIdx j k 1 : ℕ) = j 1 := by
  simp [DotDims.rhsIdx, D4, dot_S4x512_S4x256_S512x256_0_0_1_1_n_n]; rfl

/-- A four-row product into the zero accumulator, at (l, d): the sum over the four channels. -/
theorem matmul4_apply (A : FVec Ideal S4x512 .f32) (Bm : FVec Ideal S4x256 .f32) (l : Fin 512) (d : Fin 256) :
    matmul D4 none A Bm (constant S512x256 .f32 0x00000000#32) (ix2 l d) = ∑ c : Fin 4, A (ix2 c l) * Bm (ix2 c d) := by
  simp only [matmul]
  rw [Ideal.matmul_constant_zero_apply]
  rw [← Equiv.sum_comp (contrEquiv1 D4 4 rfl rfl).symm]
  refine Finset.sum_congr rfl fun c _ => ?_
  have e1 : D4.lhsIdx (ix2 l d) ((contrEquiv1 D4 4 rfl rfl).symm c) = ix2 c l := by
    funext a; apply Fin.ext
    match a with
    | ⟨0, _⟩ => exact (lhs_0 _ _).trans (contrEquiv1_symm_val D4 4 rfl rfl c)
    | ⟨1, _⟩ => exact lhs_1 _ _
  have e2 : D4.rhsIdx (ix2 l d) ((contrEquiv1 D4 4 rfl rfl).symm c) = ix2 c d := by
    funext a; apply Fin.ext
    match a with
    | ⟨0, _⟩ => exact (rhs_0 _ _).trans (contrEquiv1_symm_val D4 4 rfl rfl c)
    | ⟨1, _⟩ => exact rhs_1 _ _
  rw [e1, e2]

/-- Column `l + k` of a 520-column tile. -/
abbrev tileCol (l : Fin 512) (k : Fin 9) : Fin 520 := ⟨l.val + k.val, by omega⟩

/-- One tap's product at (l, d): the tile shifted by `k` columns against the tap's 4 x 256 matrix. -/
theorem tapProd_apply (x0 : Vec Ideal S1x1x4x520 .f32) (k : ℕ) (hk : k < 9) (hs : S4x520.Slices ![0, k] S4x512) (wk : Vec Ideal S1x4x256 .f32)
    (l : Fin 512) (d : Fin 256) :
    matmul D4 none (extractStridedSlice S4x512 ![0, k] (k0_pay2 x0) hs) (shapeCast S4x256 wk shapeCasts_S1x4x256_S4x256 : FVec Ideal S4x256 .f32)
        (constant S512x256 .f32 0x00000000#32) (ix2 l d)
      = ∑ c : Fin 4, x0 (ix4 (0 : Fin 1) (0 : Fin 1) c (tileCol l ⟨k, hk⟩)) * wk (ix3 (0 : Fin 1) c d) := by
  rw [matmul4_apply]
  refine Finset.sum_congr rfl fun c _ => ?_
  rw [slice2_axis1_apply k (k0_pay2 x0) hs c l (tileCol l ⟨k, hk⟩) (by show l.val + k = k + l.val; omega), shapeCast_1ab_ab_apply]
  unfold k0_pay2
  refine congrArg (· * _) ?_
  refine shapeCast_apply x0 _ _ _ ?_
  rw [Shape.rowMajor_val_four, Shape.rowMajor_val_two]
  show ((0 * 1 + 0) * 4 + c.val) * 520 + (l.val + k) = c.val * 520 + (l.val + k)
  omega

/-- The zero literal is zero. -/
theorem zero_bits : (FloatOps.ofBits .f32 0x00000000#32 : Ideal .f32) = 0 := Ideal.ofBits_zero_f32

/-- Tap `k`'s matrix read out of the 9 x 4 x 256 block through its unit-leading rectangle. -/
theorem ldTap (x1 : Vec Ideal S9x4x256 .f32) (k : ℕ) (hk : k < 9)
    (inb : ∀ a, (![k, 0, 0] : Fin 3 → ℕ) a + S1x4x256.size a ≤ S9x4x256.size a) (c : Fin 4) (d : Fin 256) :
    View.ld x1 (Rect.unit (s := S9x4x256) ![k, 0, 0] S1x4x256.size inb) (ix3 (0 : Fin 1) c d) = x1 (ix3 (⟨k, hk⟩ : Fin 9) c d) := by
  show x1 _ = x1 _
  congr 1; funext a; apply Fin.ext
  match a with
  | ⟨0, _⟩ => show k + 1 * 0 = k; omega
  | ⟨1, _⟩ => show 0 + 1 * c.val = c.val; omega
  | ⟨2, _⟩ => show 0 + 1 * d.val = d.val; omega

/-- The body's stored block at (0, l, d), over the tile and the nine tap matrices as separate values: the nine
    four-channel products added left to right from zero are their sum over the taps. -/
theorem pay_apply (x0 : Vec Ideal S1x1x4x520 .f32) (w0 w1 w2 w3 w4 w5 w6 w7 w8 : Vec Ideal S1x4x256 .f32) (x2 : Vec Ideal S1x256 .f32)
    (l : Fin 512) (d : Fin 256) :
    k0_pay1 (k0_pay2 x0) (k0_pay3 x0 w0 w1 w2 w3 w4) (k0_pay4 x0) w5 w6 w7 w8 x2 (ix3 (0 : Fin 1) l d)
      = max ((∑ k : Fin 9, ∑ c : Fin 4, x0 (ix4 (0 : Fin 1) (0 : Fin 1) c (tileCol l k)) * (![w0, w1, w2, w3, w4, w5, w6, w7, w8] k) (ix3 (0 : Fin 1) c d))
          + x2 (ix2 (0 : Fin 1) d)) 0 := by
  rw [← sum_taps]
  unfold k0_pay1 k0_pay3 k0_pay4
  refine (shapeCast_ab_1ab_apply _ _ (0 : Fin 1) l d).trans ?_
  simp only [maximumf_apply, addf_apply, broadcast_apply]
  rw [broadcastTo_1b_ab_apply]
  rw [tapProd_apply x0 0 (by decide), tapProd_apply x0 1 (by decide), tapProd_apply x0 2 (by decide), tapProd_apply x0 3 (by decide),
    tapProd_apply x0 4 (by decide), tapProd_apply x0 5 (by decide), tapProd_apply x0 6 (by decide), tapProd_apply x0 7 (by decide),
    tapProd_apply x0 8 (by decide)]
  simp only [zero_bits]
  rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The nine tap loads, as one family, read the taps array at their own leading index. -/
theorem tapsOf_apply (x1 : Vec Ideal S9x4x256 .f32) (k : Fin 9) (c : Fin 4) (d : Fin 256) :
    (![View.ld x1 rTap0, View.ld x1 rTap1, View.ld x1 rTap2, View.ld x1 rTap3, View.ld x1 rTap4, View.ld x1 rTap5,
        View.ld x1 rTap6, View.ld x1 rTap7, View.ld x1 rTap8] k) (ix3 (0 : Fin 1) c d) = x1 (ix3 k c d) := by
  fin_cases k <;> exact ldTap x1 _ (by decide) _ c d

/-- What the body leaves in the output block, at (0, l, d): the convolution over the tile's columns `l .. l + 8`. -/
theorem outBlock_apply (x0 : Vec Ideal S1x1x4x520 .f32) (x1 : Vec Ideal S9x4x256 .f32) (x2 : Vec Ideal S1x256 .f32) (l : Fin 512) (d : Fin 256) :
    outBlock x0 x1 x2 (ix3 (0 : Fin 1) l d)
      = max ((∑ k : Fin 9, ∑ c : Fin 4, x0 (ix4 (0 : Fin 1) (0 : Fin 1) c (tileCol l k)) * x1 (ix3 k c d)) + x2 (ix2 (0 : Fin 1) d)) 0 := by
  unfold outBlock
  rw [View.canon_unit_zero hz3]
  rw [View.ld_unit_zero (S := S1x1x4x520) hz4, View.ld_unit_zero (S := S1x256) hz2]
  rw [pay_apply]
  refine congrArg (fun s => max (s + x2 (ix2 (0 : Fin 1) d)) 0) (Finset.sum_congr rfl fun k _ => Finset.sum_congr rfl fun c _ => ?_)
  rw [tapsOf_apply]

end Cert.ReferenceIdeal.ConvBlock
end
-- ==== Proof.RefValue.lean ====
/-
  The reference's result array as one function of its arguments.

  On the host the padded input (2056 columns) is cut into four tiles of 520 columns, tile j starting at column
  512 j, each given a unit axis and the four stacked along it: tiles(b, j, c, p) = padded(b, c, 512 j + p).
  The launch walks the grid (b, j), 2048 points; point (b, j) reads tile (b, j), all nine tap matrices and the
  bias row, and writes back positions 512 j .. 512 j + 511 of batch element b. Position 512 j + l seen through
  tap k is padded column (512 j + l) + k = 512 j + (l + k), column l + k of the tile. So what a point writes back
  is a block of the convolution of the padded input (ConvSpec), the blocks cover the result array, and the array
  ends at the convolution.
-/
import proofs.«145477_g2000609548398270_pallasbulk_1038_3_alg».proof.Proof.RefFrame
import proofs.«145477_g2000609548398270_pallasbulk_1038_3_alg».proof.Proof.RefBlock
import Idealize.ShloMosaic.Lib.Pipeline.Value
import Idealize.ShloMosaic.Lib.StableHlo.Run

noncomputable section

namespace Cert.ReferenceIdeal.ConvValue

open Cert.ReferenceIdeal Cert.ReferenceIdeal.Gen Cert.ReferenceIdeal.Conv Cert.ReferenceIdeal.ConvBlock Cert.ConvSpec
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The host operations before the launch -/

/-- The input padded by four zero columns on each side of its last axis. -/
def padded (x : Vec Ideal S512x4x2048 .f32) : Vec Ideal S512x4x2056 .f32 :=
  pad S512x4x2056 ![0, 0, 4] ![0, 0, 4] ![0, 0, 0] x (sitofp .f32 (constantI S_ 32 0#32) : FVec Ideal S_ .f32) pads_S512x4x2048_S512x4x2056_000_000_440 h_S_

/-- Tile `n` of a padded array: columns `512 n .. 512 n + 519`, with a unit axis for the stack. -/
def tile (P : Vec Ideal S512x4x2056 .f32) (n : Fin 4) (hs : S512x4x2056.Slices ![0, 0, 512 * n.val] S512x4x520) : Vec Ideal S512x1x4x520 .f32 :=
  broadcastInDim S512x1x4x520 ![0, 2, 3] bcast_S512x4x520_S512x1x4x520_0_2_3 (extractStridedSlice S512x4x520 ![0, 0, 512 * n.val] P hs)

theorem tile_slices : ∀ n : Fin 4, S512x4x2056.Slices ![0, 0, 512 * n.val] S512x4x520 := by decide

/-- The four tiles stacked. -/
def tiles (P : Vec Ideal S512x4x2056 .f32) : Vec Ideal S512x4x4x520 .f32 :=
  concatenate S512x4x4x520 1 (List.ofFn fun n : Fin 4 => (⟨S512x1x4x520, tile P n (tile_slices n)⟩ : (s : Shape) × (s.Idx → Ideal .f32)))
    concatenates_S512x1x4x520_S512x1x4x520_S512x1x4x520_S512x1x4x520_S512x4x4x520_d1

/-- Column `512 j + p` of a padded row: column `p` of tile `j`. -/
abbrev padCol (j : Fin 4) (p : Fin 520) : Fin 2056 := ⟨512 * j.val + p.val, by omega⟩

/-- The stacked tiles at (b, j, c, p): the padded array at (b, c, 512 j + p). -/
theorem tiles_apply (P : Vec Ideal S512x4x2056 .f32) (b : Fin 512) (j : Fin 4) (ch : Fin 4) (p : Fin 520) :
    tiles P (ix4 b j ch p) = P (ix3 b ch (padCol j p)) := by
  unfold tiles
  refine (concatenate_ofFn_apply (t := S512x4x4x520) (s₁ := S512x1x4x520) 1 (fun n : Fin 4 => tile P n (tile_slices n))
    concatenates_S512x1x4x520_S512x1x4x520_S512x1x4x520_S512x1x4x520_S512x4x4x520_d1 rfl 1 rfl (ix4 b j ch p) j (Nat.div_one _)
    (ix4 b (0 : Fin 1) ch p) (Nat.mod_one _).symm ?_).trans ?_
  · intro a ha
    match a with
    | ⟨0, _⟩ => rfl
    | ⟨1, _⟩ => exact absurd rfl ha
    | ⟨2, _⟩ => rfl
    | ⟨3, _⟩ => rfl
  · unfold tile
    refine (broadcastInDim_apply _ _ _ (ix4 b (0 : Fin 1) ch p) (ix3 b ch p) fun a => ?_).trans ?_
    · match a with
      | ⟨0, _⟩ => rfl
      | ⟨1, _⟩ => rfl
      | ⟨2, _⟩ => rfl
    · refine extractStridedSlice_apply _ P _ (ix3 b ch p) (ix3 b ch (padCol j p)) fun a => ?_
      match a with
      | ⟨0, _⟩ => exact (Nat.zero_add _).symm
      | ⟨1, _⟩ => exact (Nat.zero_add _).symm
      | ⟨2, _⟩ => rfl

/-- The launch finds the stacked tiles of the padded input in window 0's array. -/
theorem V_tiles (c : Dev nD) : (V m c main_v9 : Vec Ideal S512x4x4x520 .f32) = tiles (padded (m ((c : Thread nD τ).loc main_arg0))) := by
  dsimp only [V]
  simp only [hostOps0, hostOps0_1, hostOps0_2, List.flatten_cons, List.flatten_nil, List.append_nil, List.cons_append, List.nil_append]
  after_results
  rfl

/-! ## The windows' block indices, decided over the 2048 points -/

theorem idx_in : ∀ t : Fin cfg0.N, win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0 :=
  (by decide +kernel : ∀ t : Fin grid0.N, _)

/-- The batch element and the tile of grid point `t`. -/
abbrev batchOf (t : Fin cfg0.N) : Fin 512 := ⟨t.val / 4, by have h : t.val < 2048 := lt_of_lt_of_eq t.isLt N_0; omega⟩
abbrev tileOf (t : Fin cfg0.N) : Fin 4 := ⟨t.val % 4, by omega⟩

/-- Window 0's block at point `t` is tile (batch, tile) of the stacked tiles. -/
theorem iblk0_apply (c : Dev nD) (t : Fin cfg0.N) (ch : Fin 4) (p : Fin 520) :
    (iblk m c 0 t : Vec Ideal S1x1x4x520 .f32) (ix4 (0 : Fin 1) (0 : Fin 1) ch p)
      = (V m c main_v9 : Vec Ideal S512x4x4x520 .f32) (ix4 (batchOf t) (tileOf t) ch p) := by
  obtain ⟨e0, e1, e2, e3, -⟩ := idx_in t
  unfold iblk
  rw [View.read_apply]
  show V m c main_v9 _ = V m c main_v9 _
  congr 1
  funext a
  apply Fin.ext
  match a with
  | ⟨0, _⟩ => show win0_0.index t (0 : Fin 4) * 1 + 1 * 0 = t.val / 4; rw [e0]; omega
  | ⟨1, _⟩ => show win0_0.index t (1 : Fin 4) * 1 + 1 * 0 = t.val % 4; rw [e1]; omega
  | ⟨2, _⟩ => show win0_0.index t (2 : Fin 4) * 4 + 1 * ch.val = ch.val; rw [e2]; omega
  | ⟨3, _⟩ => show win0_0.index t (3 : Fin 4) * 520 + 1 * p.val = p.val; rw [e3]; omega

/-- Window 1's block at every point is the whole taps array. -/
theorem iblk1_apply (c : Dev nD) (t : Fin cfg0.N) (k : Fin 9) (ch : Fin 4) (d : Fin 256) :
    (iblk m c 1 t : Vec Ideal S9x4x256 .f32) (ix3 k ch d) = (m ((c : Thread nD τ).loc main_arg1) : Vec Ideal S9x4x256 .f32) (ix3 k ch d) := by
  obtain ⟨-, -, -, -, e0, e1, e2, -⟩ := idx_in t
  unfold iblk
  rw [View.read_apply]
  show V m c main_arg1 _ = _
  rw [V_main_arg1]
  congr 1
  funext a
  apply Fin.ext
  match a with
  | ⟨0, _⟩ => show win0_1.index t (0 : Fin 3) * 9 + 1 * k.val = k.val; rw [e0]; omega
  | ⟨1, _⟩ => show win0_1.index t (1 : Fin 3) * 4 + 1 * ch.val = ch.val; rw [e1]; omega
  | ⟨2, _⟩ => show win0_1.index t (2 : Fin 3) * 256 + 1 * d.val = d.val; rw [e2]; omega

/-- Window 2's block at every point is the whole bias row. -/
theorem iblk2_apply (c : Dev nD) (t : Fin cfg0.N) (d : Fin 256) :
    (iblk m c 2 t : Vec Ideal S1x256 .f32) (ix2 (0 : Fin 1) d) = (m ((c : Thread nD τ).loc main_arg2) : Vec Ideal S1x256 .f32) (ix2 (0 : Fin 1) d) := by
  obtain ⟨-, -, -, -, -, -, -, e0, e1, -⟩ := idx_in t
  unfold iblk
  rw [View.read_apply]
  show V m c main_arg2 _ = _
  rw [V_main_arg2]
  congr 1
  funext a
  apply Fin.ext
  match a with
  | ⟨0, _⟩ => show win0_2.index t (0 : Fin 2) * 1 + 1 * 0 = 0; rw [e0]
  | ⟨1, _⟩ => show win0_2.index t (1 : Fin 2) * 256 + 1 * d.val = d.val; rw [e1]; omega

/-! ## A point's block is a block of the convolution -/

/-- Position `512 j + l` of the output row: position `l` of tile `j`'s block. -/
abbrev outPos (j : Fin 4) (l : Fin 512) : Fin 2048 := ⟨512 * j.val + l.val, by omega⟩

/-- Tap `k` at position `l` of tile `j` reads padded column `512 j + (l + k)`, which is position `512 j + l` seen through
    tap `k`. -/
theorem padCol_tileCol (j : Fin 4) (l : Fin 512) (k : Fin 9) : padCol j (tileCol l k) = tapCol (outPos j l) k :=
  Fin.ext (by show 512 * j.val + (l.val + k.val) = 512 * j.val + l.val + k.val; omega)

/-- Over plain values: a tile that is tile (b, j) of `P`, taps `W`, a bias row `B` give at (0, l, d) the convolution at
    (b, 512 j + l, d). -/
theorem block_eq (P : SPad.Idx → EReal) (W : STaps.Idx → EReal) (B : SBias.Idx → EReal) (b : Fin 512) (j : Fin 4)
    (x0 : Vec Ideal S1x1x4x520 .f32) (x1 : Vec Ideal S9x4x256 .f32) (x2 : Vec Ideal S1x256 .f32)
    (h0 : ∀ (ch : Fin 4) (p : Fin 520), x0 (ix4 (0 : Fin 1) (0 : Fin 1) ch p) = P (ix3 b ch (padCol j p)))
    (h1 : ∀ (k : Fin 9) (ch : Fin 4) (d : Fin 256), x1 (ix3 k ch d) = W (ix3 k ch d))
    (h2 : ∀ d : Fin 256, x2 (ix2 (0 : Fin 1) d) = B (ix2 (0 : Fin 1) d))
    (l : Fin 512) (d : Fin 256) :
    outBlock x0 x1 x2 (ix3 (0 : Fin 1) l d) = convAt P W B b (outPos j l) d := by
  rw [outBlock_apply]
  unfold convAt
  rw [h2]
  refine congrArg (fun s => max (s + B (ix2 (0 : Fin 1) d)) 0) (Finset.sum_congr rfl fun k _ => Finset.sum_congr rfl fun ch _ => ?_)
  rw [h0, h1, padCol_tileCol]

/-- The result array: the convolution of the padded input. -/
def result (c : Dev nD) : Buf (Elt Ideal) ((c : Thread nD τ).loc main_v10) :=
  conv (padded (m ((c : Thread nD τ).loc main_arg0))) (m ((c : Thread nD τ).loc main_arg1)) (m ((c : Thread nD τ).loc main_arg2))

/-- What point `t` writes back is its block of the result. -/
theorem flushed_eq (c : Dev nD) (t : Fin cfg0.N) :
    (dats m 0 c).flushed 3 t = ((cfg0.win 3).blk t).view.read (Elt Ideal) (result m c) := by
  rw [flushed_out]
  obtain ⟨-, -, -, -, -, -, -, -, -, e0, e1, e2⟩ := idx_in t
  funext y
  obtain ⟨u, l, d, rfl⟩ : ∃ (u : Fin 1) (l : Fin 512) (d : Fin 256), y = ix3 u l d := ⟨y 0, y 1, y 2, eq_ix3 y⟩
  obtain rfl : u = 0 := Subsingleton.elim _ _
  show outBlock (iblk m c 0 t) (iblk m c 1 t) (iblk m c 2 t) (ix3 (0 : Fin 1) l d) = result m c (((cfg0.win 3).blk t).view.emb (ix3 (0 : Fin 1) l d))
  refine (block_eq (padded (m ((c : Thread nD τ).loc main_arg0))) (m ((c : Thread nD τ).loc main_arg1)) (m ((c : Thread nD τ).loc main_arg2)) (batchOf t) (tileOf t)
    (iblk m c 0 t) (iblk m c 1 t) (iblk m c 2 t) (fun ch p => ?_) (iblk1_apply m c t) (iblk2_apply m c t) l d).trans ?_
  · rw [iblk0_apply, V_tiles, tiles_apply]
  · unfold result
    refine (conv_ix3 _ _ _ (batchOf t) (outPos (tileOf t) l) d).symm.trans (congrArg _ ?_)
    funext a
    apply Fin.ext
    match a with
    | ⟨0, _⟩ => show t.val / 4 = win0_3.index t (0 : Fin 3) * 1 + 1 * 0; rw [e0]; omega
    | ⟨1, _⟩ => show 512 * (t.val % 4) + l.val = win0_3.index t (1 : Fin 3) * 512 + 1 * l.val; rw [e1]; omega
    | ⟨2, _⟩ => show d.val = win0_3.index t (2 : Fin 3) * 256 + 1 * d.val; rw [e2]; omega

/-- An index of the result array is in point `t`'s block iff each coordinate is in the block's range on its axis. -/
theorem mem_blk (t : Fin cfg0.N) (i : S512x2048x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v10).slice (win0_3.rect t)).set ↔ _
  rw [View.set_slice_whole, Rect.mem_set_unit]
  exact Iff.rfl

/-- Every index (b, r, d) of the result array is in the block of point (b, r / 512). -/
theorem cover (i : S512x2048x256.Idx) : ∃ t : Fin cfg0.N, (cfg0.win 3).flush t = true ∧ i ∈ ((cfg0.win 3).blk t).view.set := by
  have hi0 : (i 0).val < 512 := (i 0).isLt
  have hi1 : (i 1).val < 2048 := (i 1).isLt
  have hi2 : (i 2).val < 256 := (i 2).isLt
  have hN : cfg0.N = 2048 := N_0
  have ht : 4 * (i 0).val + (i 1).val / 512 < cfg0.N := by rw [hN]; omega
  refine ⟨⟨4 * (i 0).val + (i 1).val / 512, ht⟩, flush0_3 _, ?_⟩
  obtain ⟨-, -, -, -, -, -, -, -, -, e0, e1, e2⟩ := idx_in ⟨4 * (i 0).val + (i 1).val / 512, ht⟩
  rw [mem_blk]
  intro a
  match a with
  | ⟨0, _⟩ => show win0_3.index _ (0 : Fin 3) * 1 ≤ (i 0).val ∧ (i 0).val < win0_3.index _ (0 : Fin 3) * 1 + 1; rw [e0]; show (4 * (i 0).val + (i 1).val / 512) / 4 * 1 ≤ (i 0).val ∧ (i 0).val < (4 * (i 0).val + (i 1).val / 512) / 4 * 1 + 1; omega
  | ⟨1, _⟩ => show win0_3.index _ (1 : Fin 3) * 512 ≤ (i 1).val ∧ (i 1).val < win0_3.index _ (1 : Fin 3) * 512 + 512; rw [e1]; show (4 * (i 0).val + (i 1).val / 512) % 4 * 512 ≤ (i 1).val ∧ (i 1).val < (4 * (i 0).val + (i 1).val / 512) % 4 * 512 + 512; omega
  | ⟨2, _⟩ => show win0_3.index _ (2 : Fin 3) * 256 ≤ (i 2).val ∧ (i 2).val < win0_3.index _ (2 : Fin 3) * 256 + 256; rw [e2]; omega

/-- The result array after the run is the convolution. -/
theorem final (c : Dev nD) : (dats m 0 c).arrAt 3 cfg0.N = result m c :=
  (dats m 0 c).arrAt_eq_of_cover 3 (result m c) (fun t _ => flushed_eq m c t) cover

/-- The run, read: the result array at the convolution of the padded first argument with the other two, the arguments
    unchanged. -/
theorem run : θ_run defs (onTc (τ := τ) (main (F := Ideal))) ⟨m, fun _ => 0, ρ⟩ fun r => ∀ c : Dev nD,
      r.2.mem ((c : Thread nD τ).loc main_v10)
          = conv (padded (m ((c : Thread nD τ).loc main_arg0))) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.ReferenceIdeal.ConvValue

end
-- ==== Proof.lean ====
/-
  The certificate: a nine-tap "same" convolution over four channels into 256 features, plus bias, clamped at zero,
  computed two ways.

  The kernel pads the 2048-column rows by four zeros on each side, and per batch element stacks the nine
  column-shifted views of the 4-channel tile into one 36-row operand that ONE product contracts against the
  taps flattened to 36 rows. The reference pads the same way, cuts each padded row into four overlapping tiles
  of 520 columns, and per (batch, tile) adds nine separate 4-row products left to right onto zero. Both then add
  the bias row and take the maximum with zero.

  At the ideal instance both results are, index by index,

      out(b, l, d) = max ( Σ_{k < 9} Σ_{c < 4} padded(b, c, l + k) · w(k, c, d)  +  bias(0, d) ,  0 )

  (ConvSpec): the kernel's sum over 36 rows is this double sum re-indexed by row = 4 k + c, the reference's chain of
  nine is the outer sum written out. Sums on the extended reals re-associate freely, so the precondition is not
  used for the values.

  The frames of the two kernel programs are the generated ones. The reference is itself a pipelined launch behind
  twelve host operations; its run is proved in RefFrame against the pipeline library, and its frame is that run
  with the result dropped. The idealization rewrote nothing, so `preserves` is trivial.
-/
import proofs.«145477_g2000609548398270_pallasbulk_1038_3_alg».proof.Defs
import proofs.«145477_g2000609548398270_pallasbulk_1038_3_alg».proof.Proof.Gen.Kernel
import proofs.«145477_g2000609548398270_pallasbulk_1038_3_alg».proof.Proof.Gen.Kernel.Skeleton
import proofs.«145477_g2000609548398270_pallasbulk_1038_3_alg».proof.Proof.Gen.Kernel.Launch
import proofs.«145477_g2000609548398270_pallasbulk_1038_3_alg».proof.Proof.Gen.Kernel.Points
import proofs.«145477_g2000609548398270_pallasbulk_1038_3_alg».proof.Proof.Gen.Kernel.Frame
import proofs.«145477_g2000609548398270_pallasbulk_1038_3_alg».proof.Proof.Gen.KernelIdeal
import proofs.«145477_g2000609548398270_pallasbulk_1038_3_alg».proof.Proof.Gen.KernelIdeal.Skeleton
import proofs.«145477_g2000609548398270_pallasbulk_1038_3_alg».proof.Proof.Gen.KernelIdeal.Launch
import proofs.«145477_g2000609548398270_pallasbulk_1038_3_alg».proof.Proof.Gen.KernelIdeal.Points
import proofs.«145477_g2000609548398270_pallasbulk_1038_3_alg».proof.Proof.Gen.KernelIdeal.Frame
import proofs.«145477_g2000609548398270_pallasbulk_1038_3_alg».proof.Proof.Gen.KernelIdeal.Value
import proofs.«145477_g2000609548398270_pallasbulk_1038_3_alg».proof.Proof.Gen.ReferenceIdeal
import proofs.«145477_g2000609548398270_pallasbulk_1038_3_alg».proof.Proof.Gen.ReferenceIdeal.Skeleton
import proofs.«145477_g2000609548398270_pallasbulk_1038_3_alg».proof.Proof.Gen.ReferenceIdeal.Launch
import proofs.«145477_g2000609548398270_pallasbulk_1038_3_alg».proof.Proof.Gen.ReferenceIdeal.Points
import proofs.«145477_g2000609548398270_pallasbulk_1038_3_alg».proof.Proof.Gen.Pre_finite_inputs
import proofs.«145477_g2000609548398270_pallasbulk_1038_3_alg».proof.Proof.KernelValue
import proofs.«145477_g2000609548398270_pallasbulk_1038_3_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.ConvValue.run m ρ)

/-- The idealization rewrote no operation. -/
theorem preserves : Cert.preserves_Kernel_KernelIdeal := trivial

/-- From memories that agree on the arguments both programs end with the convolution of the padded first argument
    with the other two: the same function of the same arrays. -/
theorem algebraic : Cert.algebraic_KernelIdeal_ReferenceIdeal := by
  intro m ρ m' ρ' _ hagree
  refine ⟨_, Cert.KernelIdeal.ConvValue.run m ρ, ?_⟩
  refine (θ_run Cert.ReferenceIdeal.defs _ _).mono (fun _ h c => ⟨(h c).1.trans ?_, (h c).2⟩)
    (Cert.ReferenceIdeal.ConvValue.run m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
